-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x16384 : Shape := ⟨2, ![4096, 16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x16384 : S_.BroadcastsInDim S4096x16384 (![] : Fin 0 → Fin S4096x16384.rank)
  reducesTo_S4096x16384_S_d0_1 : S4096x16384.ReducesTo [0, 1] S_

variable [Facts]

def fn {F : FTy → Type} [FloatOps F] (main_arg0 : FVec F S4x2048x4096 .f32) (main_arg1 : FVec F S4096x16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x16384 .f32 := Host.absf main_arg1
  let main_cst_0 : FVec F S_ .f32 := constant S_ .f32 0x7F800000#32
  let main_v5 : FVec F S4096x16384 .f32 := broadcastInDim S4096x16384 ![] bcast_S_S4096x16384 main_cst_0
  let main_v6 : IVec S4096x16384 1 := cmpf .olt main_v4 main_v5
  let main_c_1 : IVec S_ 1 := constantI S_ 1 1#1
  let main_v7 : IVec S_ 1 := (fun x v => Host.reduce IntOp.andi x v reducesTo_S4096x16384_S_d0_1 h_S_) main_v6 main_c_1
  let main_v8 : IVec S_ 1 := andi main_v3 main_v7
  main_v8
-- ==== Kernel.lean ====
abbrev S4x2048x4096 : Shape := ⟨3, ![4, 2048, 4096]⟩
abbrev S4096x16384 : Shape := ⟨2, ![4096, 16384]⟩
abbrev S_ : Shape := ⟨0, ![]⟩
abbrev S4x2048 : Shape := ⟨2, ![4, 2048]⟩
abbrev S4x2048x1 : Shape := ⟨3, ![4, 2048, 1]⟩
abbrev S16384 : Shape := ⟨1, ![16384]⟩
abbrev S1x16384 : Shape := ⟨2, ![1, 16384]⟩
abbrev S8192x4096 : Shape := ⟨2, ![8192, 4096]⟩
abbrev S8192x1 : Shape := ⟨2, ![8192, 1]⟩
abbrev S8192x16384 : Shape := ⟨2, ![8192, 16384]⟩
abbrev S512x2048 : Shape := ⟨2, ![512, 2048]⟩
abbrev S2048x2048 : Shape := ⟨2, ![2048, 2048]⟩
abbrev S512x1 : Shape := ⟨2, ![512, 1]⟩
abbrev S1x2048 : Shape := ⟨2, ![1, 2048]⟩
abbrev S4x2048x16384 : Shape := ⟨3, ![4, 2048, 16384]⟩

abbrev nBuf : Space → Nat
  | .hbm => 56
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .i1⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4096x16384, .f32⟩
  | .hbm, ⟨27, _⟩ => ⟨S_, .f32⟩
  | .hbm, ⟨28, _⟩ => ⟨S16384, .f32⟩
  | .hbm, ⟨29, _⟩ => ⟨S1x16384, .f32⟩
  | .hbm, ⟨30, _⟩ => ⟨S_, .f32⟩
  | .hbm, ⟨31, _⟩ => ⟨S1x16384, .f32⟩
  | .hbm, ⟨32, _⟩ => ⟨S1x16384, .f32⟩
  | .hbm, ⟨33, _⟩ => ⟨S_, .f32⟩
  | .hbm, ⟨34, _⟩ => ⟨S1x16384, .f32⟩
  | .hbm, ⟨35, _⟩ => ⟨S1x16384, .i1⟩
  | .hbm, ⟨36, _⟩ => ⟨S_, .f32⟩
  | .hbm, ⟨37, _⟩ => ⟨S1x16384, .f32⟩
  | .hbm, ⟨38, _⟩ => ⟨S1x16384, .f32⟩
  | .hbm, ⟨39, _⟩ => ⟨S4096x16384, .f32⟩
  | .hbm, ⟨40, _⟩ => ⟨S4096x16384, .f32⟩
  | .hbm, ⟨41, _⟩ => ⟨S4096x16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x16384, .f32⟩
  | .hbm, ⟨46, _⟩ => ⟨S4096x16384, .f32⟩
  | .hbm, ⟨47, _⟩ => ⟨S_, .f32⟩
  | .hbm, ⟨48, _⟩ => ⟨S4096x16384, .f32⟩
  | .hbm, ⟨49, _⟩ => ⟨S4096x16384, .f32⟩
  | .hbm, ⟨50, _⟩ => ⟨S8192x4096, .f32⟩
  | .hbm, ⟨51, _⟩ => ⟨S8192x4096, .bf16⟩
  | .hbm, ⟨52, _⟩ => ⟨S4096x16384, .bf16⟩
  | .hbm, ⟨53, _⟩ => ⟨S8192x1, .f32⟩
  | .hbm, ⟨54, _⟩ => ⟨S8192x16384, .f32⟩
  | .hbm, ⟨55, _⟩ => ⟨S4x2048x16384, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x1, .f32⟩
  | .local _ .vmem, ⟨5, _⟩ => ⟨S512x1, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x16384_S16384_d0 : S4096x16384.ReducesTo [0] S16384
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  shapeCasts_S4x2048x4096_S8192x4096 : S4x2048x4096.ShapeCasts S8192x4096
  bitsLt_bf16_f32 : FTy.bits .bf16 < FTy.bits .f32
  shapeCasts_S4x2048x1_S8192x1 : S4x2048x1.ShapeCasts S8192x1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S8192x16384_S4x2048x16384 : S8192x16384.ShapeCasts S4x2048x16384
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x4096.size a
  hwx0_0 : ∀ i : grid0.Coords, EltTy.bits .bf16 = 32 ∨ (Rect.block (s := S8192x4096) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S4096x16384.size a
  hwx0_1 : ∀ i : grid0.Coords, EltTy.bits .bf16 = 32 ∨ (Rect.block (s := S4096x16384) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x16384.size a
  hwx0_4 : ∀ i : grid0.Coords, EltTy.bits .f32 = 32 ∨ (Rect.block (s := S8192x16384) S512x2048.size (cc0_transform_4 i) (hinb0_4 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v27) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x16384 : Shape := ⟨2, ![4096, 16384]⟩
abbrev S_ : Shape := ⟨0, ![]⟩
abbrev S4x2048 : Shape := ⟨2, ![4, 2048]⟩
abbrev S4x2048x1 : Shape := ⟨3, ![4, 2048, 1]⟩
abbrev S16384 : Shape := ⟨1, ![16384]⟩
abbrev S1x16384 : Shape := ⟨2, ![1, 16384]⟩
abbrev S4x2048x16384 : Shape := ⟨3, ![4, 2048, 16384]⟩
abbrev S1x1x16384 : Shape := ⟨3, ![1, 1, 16384]⟩

abbrev nBuf : Space → Nat
  | .hbm => 56
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x16384, .f32⟩
  | .hbm, ⟨2, _⟩ => ⟨S4x2048x4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .i1⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048x4096, .f32⟩
  | .hbm, ⟨25, _⟩ => ⟨S4x2048x4096, .f32⟩
  | .hbm, ⟨26, _⟩ => ⟨S4096x16384, .f32⟩
  | .hbm, ⟨27, _⟩ => ⟨S_, .f32⟩
  | .hbm, ⟨28, _⟩ => ⟨S16384, .f32⟩
  | .hbm, ⟨29, _⟩ => ⟨S1x16384, .f32⟩
  | .hbm, ⟨30, _⟩ => ⟨S_, .f32⟩
  | .hbm, ⟨31, _⟩ => ⟨S1x16384, .f32⟩
  | .hbm, ⟨32, _⟩ => ⟨S1x16384, .f32⟩
  | .hbm, ⟨33, _⟩ => ⟨S_, .f32⟩
  | .hbm, ⟨34, _⟩ => ⟨S1x16384, .f32⟩
  | .hbm, ⟨35, _⟩ => ⟨S1x16384, .i1⟩
  | .hbm, ⟨36, _⟩ => ⟨S_, .f32⟩
  | .hbm, ⟨37, _⟩ => ⟨S1x16384, .f32⟩
  | .hbm, ⟨38, _⟩ => ⟨S1x16384, .f32⟩
  | .hbm, ⟨39, _⟩ => ⟨S4096x16384, .f32⟩
  | .hbm, ⟨40, _⟩ => ⟨S4096x16384, .f32⟩
  | .hbm, ⟨41, _⟩ => ⟨S4096x16384, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096x16384, .f32⟩
  | .hbm, ⟨46, _⟩ => ⟨S4096x16384, .f32⟩
  | .hbm, ⟨47, _⟩ => ⟨S_, .f32⟩
  | .hbm, ⟨48, _⟩ => ⟨S4096x16384, .f32⟩
  | .hbm, ⟨49, _⟩ => ⟨S4096x16384, .f32⟩
  | .hbm, ⟨50, _⟩ => ⟨S4x2048x16384, .f32⟩
  | .hbm, ⟨51, _⟩ => ⟨S4x2048x16384, .f32⟩
  | .hbm, ⟨52, _⟩ => ⟨S4x2048x16384, .f32⟩
  | .hbm, ⟨53, _⟩ => ⟨S1x1x16384, .f32⟩
  | .hbm, ⟨54, _⟩ => ⟨S4x2048x16384, .f32⟩
  | .hbm, ⟨55, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call2_v0 : Ref sig .tc := ⟨.hbm, 20, rfl⟩
abbrev main_call2_v1 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_v12 : Ref sig .tc := ⟨.hbm, 25, rfl⟩
abbrev main_v13 : Ref sig .tc := ⟨.hbm, 26, rfl⟩
abbrev main_cst_5 : Ref sig .tc := ⟨.hbm, 27, rfl⟩
abbrev main_v14 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_v19 : Ref sig .tc := ⟨.hbm, 35, rfl⟩
abbrev main_cst_8 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_9 : Ref sig .tc := ⟨.hbm, 42, rfl⟩
abbrev main_cst_10 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]

class Facts₀ : Prop where
  reducesTo_S4x2048x4096_S4x2048_d2 : S4x2048x4096.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  reducesTo_S4096x16384_S16384_d0 : S4096x16384.ReducesTo [0] S16384
  bcast_S16384_S1x16384_1 : S16384.BroadcastsInDim S1x16384 (![1] : Fin 1 → Fin S1x16384.rank)
  bcast_S_S1x16384 : S_.BroadcastsInDim S1x16384 (![] : Fin 0 → Fin S1x16384.rank)
  bcast_S1x16384_S4096x16384_0_1 : S1x16384.BroadcastsInDim S4096x16384 (![0, 1] : Fin 2 → Fin S4096x16384.rank)
  bcast_S_S4096x16384 : S_.BroadcastsInDim S4096x16384 (![] : Fin 0 → Fin S4096x16384.rank)
  bcast_S4x2048x1_S4x2048x16384_0_1_2 : S4x2048x1.BroadcastsInDim S4x2048x16384 (![0, 1, 2] : Fin 3 → Fin S4x2048x16384.rank)
  bcast_S1x16384_S1x1x16384_1_2 : S1x16384.BroadcastsInDim S1x1x16384 (![1, 2] : Fin 2 → Fin S1x1x16384.rank)
  bcast_S1x1x16384_S4x2048x16384_0_1_2 : S1x1x16384.BroadcastsInDim S4x2048x16384 (![0, 1, 2] : Fin 3 → Fin S4x2048x16384.rank)
  dot_S4x2048x4096_S4096x16384_S4x2048x16384_2_0_01_1_n_n_wf : DotDims.WF S4x2048x4096 S4096x16384 S4x2048x16384 [2] [0] [0, 1] [1] [] []

variable [Facts₀]

def dot_S4x2048x4096_S4096x16384_S4x2048x16384_2_0_01_1_n_n : DotDims S4x2048x4096 S4096x16384 S4x2048x16384 where
  lhsContracting := [2]
  rhsContracting := [0]
  lhsNonContracting := [0, 1]
  rhsNonContracting := [1]
  lhsBatch := []
  rhsBatch := []
  wf := dot_S4x2048x4096_S4096x16384_S4x2048x16384_2_0_01_1_n_n_wf

class Facts : Prop extends Facts₀ where

variable [Facts]
-- ==== Proof.Pieces.lean ====
/-
  What one run of the kernel body leaves behind, as values of what it loaded. The body keeps a 512 x 2048
  accumulator in scratch memory across the two steps of the contraction axis.
    * First step (contraction block 0): the accumulator is overwritten by zeros, read back, and replaced by
      (zeros + lhs block · rhs block). Nothing is stored to the output block.
    * Second step (contraction block 1): the accumulator, holding what the first step left, is replaced by
      (accumulator + lhs block · rhs block); that new accumulator, scaled by the row scales and then by the
      column scales, is stored to the output block.
  Each statement holds at every float instance: the stores cover their whole buffers, so what a buffer holds
  afterwards is the payload of its last store, and every load reads a whole buffer.
-/
import proofs.«157518_j19481971655319_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step: the accumulator ends at zeros + (lhs block · rhs block). -/
theorem acc_first (c : Dev nD) (i : grid0.Coords) (a3 : Memref sig .tc .vmem S512x2048 .bf16) (h3 : a3.IsWhole) (a4 : Memref sig .tc .vmem S2048x2048 .bf16) (h4 : a4.IsWhole) (a5 : Memref sig .tc .vmem S512x1 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : cond0_0 i) (hc1 : ¬cond0_1 i)
    (x0 : Vec F S512x2048 .bf16) (x1 : Vec F S2048x2048 .bf16) (x2 : Vec F S512x1 .f32) (x3 : Vec F S1x2048 .f32) :
    sout0_A_0 c i a3 h3 a4 h4 a5 h5 a6 h6 a7 h7 a8 h8 hc0 hc1 x0 x1 x2 x3 = k0_pay2 (k0_pay1 (F := F)) x0 x1 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x2048) hz]
  simp only [View.readAt_eq_ld, h3.read_unread, h4.read_unread, View.ld_unit_zero (S := S512x2048) hz,
    View.ld_unit_zero (S := S2048x2048) hz, View.readCov_unit_zero (S := S512x2048) _ hz]

/-- Second step: the accumulator, found at `xs0`, ends at `xs0` + (lhs block · rhs block). -/
theorem acc_second (c : Dev nD) (i : grid0.Coords) (a3 : Memref sig .tc .vmem S512x2048 .bf16) (h3 : a3.IsWhole) (a4 : Memref sig .tc .vmem S2048x2048 .bf16) (h4 : a4.IsWhole) (a5 : Memref sig .tc .vmem S512x1 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i)
    (x0 : Vec F S512x2048 .bf16) (x1 : Vec F S2048x2048 .bf16) (x2 : Vec F S512x1 .f32) (x3 : Vec F S1x2048 .f32) (xs0 : Vec F S512x2048 .f32) :
    sout0_B_0 c i a3 h3 a4 h4 a5 h5 a6 h6 a7 h7 a8 h8 hc0 hc1 x0 x1 x2 x3 xs0 = k0_pay2 xs0 x0 x1 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero (S := S512x2048) hz]
  simp only [View.readAt_eq_ld, h3.read_unread, h4.read_unread, h8.read_unread, View.ld_unit_zero (S := S512x2048) hz,
    View.ld_unit_zero (S := S2048x2048) hz]

/-- Second step: the output block ends at the new accumulator times the row scales times the column scales. -/
theorem out_second (c : Dev nD) (i : grid0.Coords) (a3 : Memref sig .tc .vmem S512x2048 .bf16) (h3 : a3.IsWhole) (a4 : Memref sig .tc .vmem S2048x2048 .bf16) (h4 : a4.IsWhole) (a5 : Memref sig .tc .vmem S512x1 .f32) (h5 : a5.IsWhole) (a6 : Memref sig .tc .vmem S1x2048 .f32) (h6 : a6.IsWhole) (a7 : Memref sig .tc .vmem S512x2048 .f32) (h7 : a7.IsWhole) (a8 : Memref sig .tc .vmem S512x2048 .f32) (h8 : a8.IsWhole) (hc0 : ¬cond0_0 i) (hc1 : cond0_1 i)
    (x0 : Vec F S512x2048 .bf16) (x1 : Vec F S2048x2048 .bf16) (x2 : Vec F S512x1 .f32) (x3 : Vec F S1x2048 .f32) (xs0 : Vec F S512x2048 .f32) :
    out0_B_4 c i a3 h3 a4 h4 a5 h5 a6 h6 a7 h7 a8 h8 hc0 hc1 x0 x1 x2 x3 xs0 = k0_pay3 (k0_pay2 xs0 x0 x1) x2 x3 := by
  unfold out0_B_4
  rw [View.read_writes_eq_canon _ _ _ (cover0_B_4 c i a3 h3 a4 h4 a5 h5 a6 h6 a7 h7 a8 h8 hc0 hc1 x0 x1 x2 x3 xs0)]
  unfold kernelRun0_B
  dsimp only
  sl_unfold_words
  rw [View.canon_unit_zero (S := S512x2048) hz]
  simp only [View.readAt_eq_ld, h3.read_unread, h4.read_unread, h5.read_unread, h6.read_unread, h8.read_unread,
    View.ld_unit_zero (S := S512x2048) hz, View.ld_unit_zero (S := S2048x2048) hz, View.ld_unit_zero (S := S512x1) hz,
    View.ld_unit_zero (S := S1x2048) hz, View.readCov_unit_zero (S := S512x2048) _ hz]

end Cert.KernelIdeal.Pieces

end
-- ==== Proof.Payload.lean ====
/-
  The body's three stored values, entry by entry, on the extended reals.
    * the reset value is 0 everywhere;
    * the accumulator update at (p, q) is the old accumulator at (p, q) plus the sum over the 2048 contraction
      indices k of the block of lhs at (p, k) times the block of rhs at (k, q): a matrix product into a zero
      accumulator is that plain sum, and the changes of shape to the same shape are identities;
    * the output at (p, q) is the accumulator at (p, q), times the row scale of row p, times the column scale of
      column q: the two broadcasts read the scale vectors at (p, 0) and at (0, q).
-/
import proofs.«157518_j19481971655319_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Payload

open Cert.KernelIdeal Cert.KernelIdeal.Gen

/-- The reset value is zero at every entry. -/
theorem reset_apply (j : S512x2048.Idx) : k0_pay1 (F := Ideal) j = 0 := by
  unfold k0_pay1
  rw [shapeCast_self]
  exact Ideal.ofBits_zero_f32

theorem lhs_mm_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
theorem lhs_mm_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
theorem rhs_mm_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
theorem rhs_mm_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The block product into a zero accumulator, at (p, q): the sum over k of lhs (p, k) · rhs (k, q). -/
theorem block_product_apply (l : FVec Ideal S512x2048 .bf16) (r : FVec Ideal S2048x2048 .bf16) (p : Fin 512) (q : Fin 2048) :
    matmul dot_S512x2048_S2048x2048_S512x2048_1_0_0_1_n_n none l r (constant S512x2048 .f32 0x00000000#32) (ix2 p q)
      = ∑ k : Fin 2048, l (ix2 p k) * r (ix2 k q) := by
  refine (Ideal.matmul_constant_zero_apply dot_S512x2048_S2048x2048_S512x2048_1_0_0_1_n_n none l r (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun a => Fin.ext (by
    match a with
    | ⟨0, _⟩ => exact (rhs_mm_0 _ _).trans hk
    | ⟨1, _⟩ => exact rhs_mm_1 _ _)
  rw [el, er]

/-- The accumulator update at (p, q). -/
theorem update_apply (acc : Vec Ideal S512x2048 .f32) (l : Vec Ideal S512x2048 .bf16) (r : Vec Ideal S2048x2048 .bf16)
    (p : Fin 512) (q : Fin 2048) :
    k0_pay2 (F := Ideal) acc l r (ix2 p q) = acc (ix2 p q) + ∑ k : Fin 2048, l (ix2 p k) * r (ix2 k q) := by
  unfold k0_pay2
  rw [shapeCast_self, shapeCast_self, shapeCast_self, addf_apply, block_product_apply]

/-- A column of row scales broadcast along the rows reads the scale of its row. -/
theorem row_scale_apply (s : FVec Ideal S512x1 .f32) (p : Fin 512) (q : Fin 2048) :
    broadcastTo S512x2048 s broadcasts_S512x1_S512x2048 (ix2 p q) = s (ix2 p 0) :=
  broadcastTo_apply s broadcasts_S512x1_S512x2048 (ix2 p q) (ix2 p 0) (fun a => match a with
    | ⟨0, _⟩ => by show p.val = if (512 : Nat) = 1 then 0 else p.val; rw [if_neg (by decide)]
    | ⟨1, _⟩ => by show 0 = if (1 : Nat) = 1 then 0 else q.val; rw [if_pos rfl])

/-- A row of column scales broadcast down the columns reads the scale of its column. -/
theorem col_scale_apply (s : FVec Ideal S1x2048 .f32) (p : Fin 512) (q : Fin 2048) :
    broadcastTo S512x2048 s broadcasts_S1x2048_S512x2048 (ix2 p q) = s (ix2 0 q) :=
  broadcastTo_apply s broadcasts_S1x2048_S512x2048 (ix2 p q) (ix2 0 q) (fun a => match a with
    | ⟨0, _⟩ => by show 0 = if (1 : Nat) = 1 then 0 else p.val; rw [if_pos rfl]
    | ⟨1, _⟩ => by show q.val = if (2048 : Nat) = 1 then 0 else q.val; rw [if_neg (by decide)])

/-- The stored output at (p, q): accumulator · row scale · column scale. -/
theorem scaled_apply (acc : Vec Ideal S512x2048 .f32) (sl : Vec Ideal S512x1 .f32) (sr : Vec Ideal S1x2048 .f32)
    (p : Fin 512) (q : Fin 2048) :
    k0_pay3 (F := Ideal) acc sl sr (ix2 p q) = acc (ix2 p q) * sl (ix2 p 0) * sr (ix2 0 q) := by
  unfold k0_pay3
  rw [shapeCast_self, shapeCast_self, mulf_apply, mulf_apply, row_scale_apply, col_scale_apply]

end Cert.KernelIdeal.Payload

end
-- ==== Proof.Blocks.lean ====
/-
  The blocks the pipeline hands the body, as entries of the arrays the region finds. The grid is 16 x 8 x 2, last
  coordinate fastest: point t has row-block t / 16, column-block (t / 2) % 8 and contraction step t % 2. At point t
    * the lhs block is rows [512 · (t / 16), +512) and columns [2048 · (t % 2), +2048) of the 8192 x 4096 operand;
    * the rhs block is rows [2048 · (t % 2), +2048) and columns [2048 · ((t / 2) % 8), +2048) of the 4096 x 16384 operand;
    * the row-scale block is rows [512 · (t / 16), +512) of the 8192 x 1 column of scales;
    * the column-scale block is columns [2048 · ((t / 2) % 8), +2048) of the 1 x 16384 row of scales;
    * the output block is rows [512 · (t / 16), +512) and columns [2048 · ((t / 2) % 8), +2048) of the 8192 x 16384 result.
  An entry of a block is the array's entry at block index · block size + the coordinate inside the block.
-/
import proofs.«157518_j19481971655319_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The four input blocks at a point, and the four arrays they are blocks of, each at its literal type. -/
abbrev lhsBlk (c : Dev nD) (t : Fin cfg0.N) : Vec F S512x2048 .bf16 := iblk m c 0 t
abbrev rhsBlk (c : Dev nD) (t : Fin cfg0.N) : Vec F S2048x2048 .bf16 := iblk m c 1 t
abbrev rowScaleBlk (c : Dev nD) (t : Fin cfg0.N) : Vec F S512x1 .f32 := iblk m c 2 t
abbrev colScaleBlk (c : Dev nD) (t : Fin cfg0.N) : Vec F S1x2048 .f32 := iblk m c 3 t
abbrev lhsArr (c : Dev nD) : Vec F S8192x4096 .bf16 := V m c main_v27
abbrev rhsArr (c : Dev nD) : Vec F S4096x16384 .bf16 := V m c main_v28
abbrev rowScaleArr (c : Dev nD) : Vec F S8192x1 .f32 := V m c main_v29
abbrev colScaleArr (c : Dev nD) : Vec F S1x16384 .f32 := V m c main_v21

/-- The printed index maps in closed form, decided over the 256 points of the grid. -/
theorem idx_facts : ∀ t : Fin cfg0.N,
    win0_0.index t (0 : Fin 2) = t.val / 16 ∧ win0_0.index t (1 : Fin 2) = t.val % 2
    ∧ win0_1.index t (0 : Fin 2) = t.val % 2 ∧ win0_1.index t (1 : Fin 2) = t.val / 2 % 8
    ∧ win0_2.index t (0 : Fin 2) = t.val / 16 ∧ win0_2.index t (1 : Fin 2) = 0
    ∧ win0_3.index t (0 : Fin 2) = 0 ∧ win0_3.index t (1 : Fin 2) = t.val / 2 % 8
    ∧ win0_4.index t (0 : Fin 2) = t.val / 16 ∧ win0_4.index t (1 : Fin 2) = t.val / 2 % 8 :=
  (by decide +kernel : ∀ t : Fin grid0.N, _)

theorem lhs_block (c : Dev nD) (t : Fin cfg0.N) (p : Fin 512) (k : Fin 2048) (r : Fin 8192) (d : Fin 4096)
    (hr : r.val = t.val / 16 * 512 + p.val) (hd : d.val = t.val % 2 * 2048 + k.val) :
    lhsBlk m c t (ix2 p k) = lhsArr m c (ix2 r d) := by
  obtain ⟨e0, e1, -⟩ := idx_facts t
  show ((cfg0.win 0).blk t).view.read (Elt F) (V m c (Pipeline.arrRef spec0 0)) (ix2 p k) = _
  rw [View.read_apply]
  show V m c main_v27 _ = V m c main_v27 _
  congr 1
  funext a; apply Fin.ext
  match a with
  | ⟨0, _⟩ => show win0_0.index t (0 : Fin 2) * 512 + 1 * p.val = r.val; rw [e0, hr]; omega
  | ⟨1, _⟩ => show win0_0.index t (1 : Fin 2) * 2048 + 1 * k.val = d.val; rw [e1, hd]; omega

theorem rhs_block (c : Dev nD) (t : Fin cfg0.N) (k : Fin 2048) (q : Fin 2048) (d : Fin 4096) (f : Fin 16384)
    (hd : d.val = t.val % 2 * 2048 + k.val) (hf : f.val = t.val / 2 % 8 * 2048 + q.val) :
    rhsBlk m c t (ix2 k q) = rhsArr m c (ix2 d f) := by
  obtain ⟨-, -, e0, e1, -⟩ := idx_facts t
  show ((cfg0.win 1).blk t).view.read (Elt F) (V m c (Pipeline.arrRef spec0 1)) (ix2 k q) = _
  rw [View.read_apply]
  show V m c main_v28 _ = V m c main_v28 _
  congr 1
  funext a; apply Fin.ext
  match a with
  | ⟨0, _⟩ => show win0_1.index t (0 : Fin 2) * 2048 + 1 * k.val = d.val; rw [e0, hd]; omega
  | ⟨1, _⟩ => show win0_1.index t (1 : Fin 2) * 2048 + 1 * q.val = f.val; rw [e1, hf]; omega

theorem row_scale_block (c : Dev nD) (t : Fin cfg0.N) (p : Fin 512) (r : Fin 8192)
    (hr : r.val = t.val / 16 * 512 + p.val) :
    rowScaleBlk m c t (ix2 p 0) = rowScaleArr m c (ix2 r 0) := by
  obtain ⟨-, -, -, -, e0, e1, -⟩ := idx_facts t
  show ((cfg0.win 2).blk t).view.read (Elt F) (V m c (Pipeline.arrRef spec0 2)) (ix2 p 0) = _
  rw [View.read_apply]
  show V m c main_v29 _ = V m c main_v29 _
  congr 1
  funext a; apply Fin.ext
  match a with
  | ⟨0, _⟩ => show win0_2.index t (0 : Fin 2) * 512 + 1 * p.val = r.val; rw [e0, hr]; omega
  | ⟨1, _⟩ => show win0_2.index t (1 : Fin 2) * 1 + 1 * 0 = 0; rw [e1]

theorem col_scale_block (c : Dev nD) (t : Fin cfg0.N) (q : Fin 2048) (f : Fin 16384)
    (hf : f.val = t.val / 2 % 8 * 2048 + q.val) :
    colScaleBlk m c t (ix2 0 q) = colScaleArr m c (ix2 0 f) := by
  obtain ⟨-, -, -, -, -, -, e0, e1, -⟩ := idx_facts t
  show ((cfg0.win 3).blk t).view.read (Elt F) (V m c (Pipeline.arrRef spec0 3)) (ix2 0 q) = _
  rw [View.read_apply]
  show V m c main_v21 _ = V m c main_v21 _
  congr 1
  funext a; apply Fin.ext
  match a with
  | ⟨0, _⟩ => show win0_3.index t (0 : Fin 2) * 1 + 1 * 0 = 0; rw [e0]
  | ⟨1, _⟩ => show win0_3.index t (1 : Fin 2) * 2048 + 1 * q.val = f.val; rw [e1, hf]; omega

end Cert.KernelIdeal.Blocks

end
-- ==== Proof.SumSplit.lean ====
/-
  A sum of 4096 terms in a commutative additive monoid is the sum of its first 2048 terms plus the sum of
  its last 2048 terms. Nothing but commutativity and associativity of the addition is used, so the law holds
  on the extended reals at the infinities too.
-/
import Idealize.ShloMosaic.Lib.ValueIdx

namespace Cert.Quant

/-- Term `k` of the first half, as one of the 4096. -/
abbrev lo (k : Fin 2048) : Fin 4096 := ⟨k.val, by omega⟩
/-- Term `k` of the second half, as one of the 4096: number `2048 + k`. -/
abbrev hi (k : Fin 2048) : Fin 4096 := ⟨2048 + k.val, by omega⟩

/-- The sum over all 4096 contraction indices splits at 2048. -/
theorem sum_halves {M : Type*} [AddCommMonoid M] (f : Fin 4096 → M) :
    ∑ d : Fin 4096, f d = (∑ k : Fin 2048, f (lo k)) + ∑ k : Fin 2048, f (hi k) :=
  Fin.sum_univ_add (a := 2048) (b := 2048) f

end Cert.Quant
-- ==== Proof.Spec.lean ====
/-
  The result both programs compute, as one function of four arrays: the quantized left operand L (8192 x 4096:
  the 4 x 2048 rows flattened), the quantized right operand R (4096 x 16384), the row scales sl (8192 x 1) and the
  column scales sr (1 x 16384). Entry (r, f) of the dequantized product is

      (sum over d < 4096 of L (r, d) · R (d, f)) · sl (r, 0) · sr (0, f),

  the products taken left to right. The kernel reaches the inner sum in two steps of 2048 contraction indices over an
  accumulator that starts at zero; on the extended reals that is the same number (`two_steps`).
-/
import proofs.«157518_j19481971655319_1_alg».proof.Proof.SumSplit
import Idealize.ShloMosaic.Lib.ValueIdx

noncomputable section

namespace Cert.Quant

open Idealize.ShloMosaic Idealize.ShloMosaic.ValueIdx

/-- The dequantized product of the quantized operands and their scales, entry by entry. -/
def dequantProduct (L : (⟨2, ![8192, 4096]⟩ : Shape).Idx → EReal) (R : (⟨2, ![4096, 16384]⟩ : Shape).Idx → EReal)
    (sl : (⟨2, ![8192, 1]⟩ : Shape).Idx → EReal) (sr : (⟨2, ![1, 16384]⟩ : Shape).Idx → EReal) :
    (⟨2, ![8192, 16384]⟩ : Shape).Idx → EReal :=
  fun j => (∑ d : Fin 4096, L (ix2 (j 0) d) * R (ix2 d (j 1))) * sl (ix2 (j 0) 0) * sr (ix2 0 (j 1))

theorem dequantProduct_apply (L : (⟨2, ![8192, 4096]⟩ : Shape).Idx → EReal) (R : (⟨2, ![4096, 16384]⟩ : Shape).Idx → EReal)
    (sl : (⟨2, ![8192, 1]⟩ : Shape).Idx → EReal) (sr : (⟨2, ![1, 16384]⟩ : Shape).Idx → EReal) (r : Fin 8192) (f : Fin 16384) :
    dequantProduct L R sl sr (ix2 r f) = (∑ d : Fin 4096, L (ix2 r d) * R (ix2 d f)) * sl (ix2 r 0) * sr (ix2 0 f) := rfl

/-- Zero, plus the first 2048 terms, plus the last 2048 terms, is the whole sum. -/
theorem two_steps (f : Fin 4096 → EReal) :
    (0 + ∑ k : Fin 2048, f (lo k)) + ∑ k : Fin 2048, f (hi k) = ∑ d : Fin 4096, f d := by
  rw [zero_add, sum_halves]

end Cert.Quant

end
-- ==== Proof.Accum.lean ====
/-
  What the output's staging block holds when it is written back. The two steps of the contraction axis are
  consecutive points: an even point t - 1 (step 0) and the odd point t (step 1) that follows it, with the same
  row-block and column-block. After the even point the accumulator holds 0 + (lhs block · rhs block) of step 0; the odd
  point adds the block product of step 1 and stores the sum times the row scales times the column scales. Read entry by
  entry on the extended reals, with each block entry read as an array entry, that is the dequantized product of the
  arrays the region finds, at row 512 · (t / 16) + p and column 2048 · ((t / 2) % 8) + q: the two block sums are the two
  halves of the sum over all 4096 contraction indices.
-/
import proofs.«157518_j19481971655319_1_alg».proof.Proof.Pieces
import proofs.«157518_j19481971655319_1_alg».proof.Proof.Payload
import proofs.«157518_j19481971655319_1_alg».proof.Proof.Blocks
import proofs.«157518_j19481971655319_1_alg».proof.Proof.Spec

noncomputable section

open Idealize.ShloMosaic Idealize.ShloMosaic.TcCoe Idealize.SL.Sem Idealize.ShloMosaic.ValueIdx

namespace Cert.KernelIdeal.Accum

open Cert.KernelIdeal Cert.KernelIdeal.Gen Cert.KernelIdeal.Blocks Cert.Quant

/-- The point before `t` (for an odd point: the same output block's contraction step 0). -/
abbrev before (t : Fin cfg0.N) : Fin cfg0.N := ⟨t.val - 1, Nat.lt_of_le_of_lt (Nat.sub_le _ _) t.isLt⟩

section AnyInstance

variable {F : FTy → Type} [FloatOps F]
variable (m : (ℓ : Loc nD τ sig) → Buf (Elt F) ℓ)

/-- After an even point the accumulator holds the reset value updated by that point's blocks. -/
theorem acc_after_even (c : Dev nD) (t : Fin cfg0.N) (h0 : t.val % 2 = 0) :
    (outsAt0 m c t.val t.isLt).2 = k0_pay2 (k0_pay1 (F := F)) (lhsBlk m c t) (rhsBlk m c t) := by
  have h1 : ¬t.val % 2 = 1 := by omega
  rw [outsAt0_A m c t h0 h1]
  dsimp only
  exact Pieces.acc_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- After an odd point the output block holds the updated accumulator of the point before, scaled. -/
theorem out_after_odd (c : Dev nD) (t : Fin cfg0.N) (h1 : t.val % 2 = 1) :
    (outsAt0 m c t.val t.isLt).1
      = k0_pay3 (k0_pay2 ((outsAt0 m c (t.val - 1) (Nat.lt_of_le_of_lt (Nat.sub_le _ _) t.isLt)).2) (lhsBlk m c t) (rhsBlk m c t))
          (rowScaleBlk m c t) (colScaleBlk m c t) := by
  have h0 : ¬t.val % 2 = 0 := by omega
  rw [outsAt0_B m c t h0 h1]
  dsimp only
  exact Pieces.out_second (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) ((outsAt0 m c (t.val - 1) (Nat.lt_of_le_of_lt (Nat.sub_le _ _) t.isLt)).2)

/-- The written-back block, over the blocks of the two steps. -/
theorem out_block (c : Dev nD) (t : Fin cfg0.N) (h1 : t.val % 2 = 1) :
    (outsAt0 m c t.val t.isLt).1
      = k0_pay3 (k0_pay2 (k0_pay2 (k0_pay1 (F := F)) (lhsBlk m c (before t)) (rhsBlk m c (before t))) (lhsBlk m c t) (rhsBlk m c t))
          (rowScaleBlk m c t) (colScaleBlk m c t) := by
  rw [out_after_odd m c t h1]
  have e := acc_after_even m c (before t) (by show (t.val - 1) % 2 = 0; omega)
  exact congrArg (fun a => k0_pay3 (k0_pay2 a (lhsBlk m c t) (rhsBlk m c t)) (rowScaleBlk m c t) (colScaleBlk m c t)) e

end AnyInstance

section AtIdeal

variable (m : (ℓ : Loc nD τ sig) → Buf (Elt Ideal) ℓ)

/-- Entry (p, q) of the block an odd point writes back is entry (r, f) of the dequantized product of the arrays the
    region finds, r = 512 · (t / 16) + p and f = 2048 · ((t / 2) % 8) + q. -/
theorem out_block_apply (c : Dev nD) (t : Fin cfg0.N) (h1 : t.val % 2 = 1) (p : Fin 512) (q : Fin 2048) (r : Fin 8192) (f : Fin 16384)
    (hr : r.val = t.val / 16 * 512 + p.val) (hf : f.val = t.val / 2 % 8 * 2048 + q.val) :
    (outsAt0 m c t.val t.isLt).1 (ix2 p q)
      = dequantProduct (lhsArr m c) (rhsArr m c) (rowScaleArr m c) (colScaleArr m c) (ix2 r f) := by
  rw [out_block m c t h1]
  refine (Payload.scaled_apply _ (rowScaleBlk m c t) (colScaleBlk m c t) p q).trans ?_
  rw [Payload.update_apply _ (lhsBlk m c t) (rhsBlk m c t) p q,
    Payload.update_apply _ (lhsBlk m c (before t)) (rhsBlk m c (before t)) p q, Payload.reset_apply,
    dequantProduct_apply, ← two_steps, row_scale_block m c t p r hr, col_scale_block m c t q f hf]
  have e0 : ∀ k : Fin 2048, lhsBlk m c (before t) (ix2 p k) * rhsBlk m c (before t) (ix2 k q)
      = lhsArr m c (ix2 r (lo k)) * rhsArr m c (ix2 (lo k) f) := fun k => by
    rw [lhs_block m c (before t) p k r (lo k) (by show r.val = (t.val - 1) / 16 * 512 + p.val; omega) (by show k.val = (t.val - 1) % 2 * 2048 + k.val; omega),
      rhs_block m c (before t) k q (lo k) f (by show k.val = (t.val - 1) % 2 * 2048 + k.val; omega) (by show f.val = (t.val - 1) / 2 % 8 * 2048 + q.val; omega)]
  have e1 : ∀ k : Fin 2048, lhsBlk m c t (ix2 p k) * rhsBlk m c t (ix2 k q)
      = lhsArr m c (ix2 r (hi k)) * rhsArr m c (ix2 (hi k) f) := fun k => by
    rw [lhs_block m c t p k r (hi k) hr (by show 2048 + k.val = t.val % 2 * 2048 + k.val; omega),
      rhs_block m c t k q (hi k) f (by show 2048 + k.val = t.val % 2 * 2048 + k.val; omega) hf]
  rw [Finset.sum_congr rfl (fun k _ => e0 k), Finset.sum_congr rfl (fun k _ => e1 k)]

end AtIdeal

end Cert.KernelIdeal.Accum

end
-- ==== Proof.Final.lean ====
/-
  The kernel's result. Only the odd points write an output block back, and the block of point t is rows
  [512 · (t / 16), +512) and columns [2048 · ((t / 2) % 8), +2048) of the 8192 x 16384 array. What point t writes back
  is that block of the dequantized product of the arrays the region finds; the 128 odd points' blocks cover the array —
  entry (r, f) lies in the block of the odd point ((r / 512) · 8 + f / 2048) · 2 + 1 —, so the array ends as that
  product, and the program's result is its re-laying as 4 x 2048 x 16384 (the one host operation after the call).
-/
import proofs.«157518_j19481971655319_1_alg».proof.Proof.Accum
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Final

open Cert.KernelIdeal Cert.KernelIdeal.Gen Cert.KernelIdeal.Blocks Cert.Quant

variable (m : (ℓ : Loc nD τ sig) → Buf (Elt Ideal) ℓ) (ρ : Dev nD → PrngReg)

/-- The dequantized product of the arrays the region finds, as contents of the call's result array. -/
abbrev product (c : Dev nD) : Buf (Elt Ideal) ((c : Thread nD τ).loc main_v30) :=
  dequantProduct (lhsArr m c) (rhsArr m c) (rowScaleArr m c) (colScaleArr m c)

/-- What a flushing point writes back is its block of the product. -/
theorem flushed_eq (c : Dev nD) (t : Fin cfg0.N) (hf : (cfg0.win 4).flush t = true) :
    (dats m 0 c).flushed 4 t = ((cfg0.win 4).blk t).view.read (Elt Ideal) (product m c) := by
  have h1 : t.val % 2 = 1 := (flush0_4 t).mp hf
  have hN : t.val < 256 := lt_of_lt_of_eq t.isLt (show cfg0.N = 256 from N_0)
  obtain ⟨-, -, -, -, -, -, -, -, e0, e1⟩ := idx_facts t
  show (cfg0.win 4).cut (grid0.coords t) ((dats m 0 c).after 4 t) = _
  rw [after0_4]
  funext j
  have hj0 : (j 0).val < 512 := (j 0).isLt
  have hj1 : (j 1).val < 2048 := (j 1).isLt
  rw [View.read_apply]
  show (outsAt0 m c t.val t.isLt).1 ((cfg0.win 4).xinj (grid0.coords t) j) = product m c (((cfg0.win 4).blk t).view.emb j)
  have ey : (cfg0.win 4).xinj (grid0.coords t) j = ix2 (⟨(j 0).val, hj0⟩ : Fin 512) (⟨(j 1).val, hj1⟩ : Fin 2048) :=
    funext fun a => by match a with | ⟨0, _⟩ => rfl | ⟨1, _⟩ => rfl
  have er : ((cfg0.win 4).blk t).view.emb j
      = ix2 (⟨t.val / 16 * 512 + (j 0).val, by omega⟩ : Fin 8192) (⟨t.val / 2 % 8 * 2048 + (j 1).val, by omega⟩ : Fin 16384) := by
    funext a; apply Fin.ext
    match a with
    | ⟨0, _⟩ => show win0_4.index t (0 : Fin 2) * 512 + 1 * (j 0).val = t.val / 16 * 512 + (j 0).val; rw [e0]; omega
    | ⟨1, _⟩ => show win0_4.index t (1 : Fin 2) * 2048 + 1 * (j 1).val = t.val / 2 % 8 * 2048 + (j 1).val; rw [e1]; omega
  rw [ey, er]
  exact Accum.out_block_apply m c t h1 _ _ _ _ rfl rfl

/-- An entry of the result array is in point `t`'s block iff each coordinate is in the block's range on its axis. -/
theorem mem_blk (t : Fin cfg0.N) (i : S8192x16384.Idx) :
    i ∈ ((cfg0.win 4).blk t).view.set ↔ ∀ a : Fin 2, win0_4.index t a * S512x2048.size a ≤ (i a).val ∧ (i a).val < win0_4.index t a * S512x2048.size a + S512x2048.size a := by
  show i ∈ ((View.whole main_v30).slice (win0_4.rect t)).set ↔ _
  rw [View.set_slice_whole, Rect.mem_set_unit]
  exact Iff.rfl

/-- Every entry of the result array is in the block of some flushing point. -/
theorem cover (i : S8192x16384.Idx) : ∃ t : Fin cfg0.N, (cfg0.win 4).flush t = true ∧ i ∈ ((cfg0.win 4).blk t).view.set := by
  have hi0 : (i 0).val < 8192 := (i 0).isLt
  have hi1 : (i 1).val < 16384 := (i 1).isLt
  have hN : cfg0.N = 256 := N_0
  refine ⟨⟨((i 0).val / 512 * 8 + (i 1).val / 2048) * 2 + 1, by rw [hN]; omega⟩, (flush0_4 _).mpr (by show (((i 0).val / 512 * 8 + (i 1).val / 2048) * 2 + 1) % 2 = 1; omega), ?_⟩
  rw [mem_blk]
  obtain ⟨-, -, -, -, -, -, -, -, e0, e1⟩ := idx_facts ⟨((i 0).val / 512 * 8 + (i 1).val / 2048) * 2 + 1, by rw [hN]; omega⟩
  intro a
  match a with
  | ⟨0, _⟩ =>
    show win0_4.index _ (0 : Fin 2) * 512 ≤ (i 0).val ∧ (i 0).val < win0_4.index _ (0 : Fin 2) * 512 + 512
    rw [e0]; show (((i 0).val / 512 * 8 + (i 1).val / 2048) * 2 + 1) / 16 * 512 ≤ (i 0).val ∧ (i 0).val < (((i 0).val / 512 * 8 + (i 1).val / 2048) * 2 + 1) / 16 * 512 + 512
    omega
  | ⟨1, _⟩ =>
    show win0_4.index _ (1 : Fin 2) * 2048 ≤ (i 1).val ∧ (i 1).val < win0_4.index _ (1 : Fin 2) * 2048 + 2048
    rw [e1]; show (((i 0).val / 512 * 8 + (i 1).val / 2048) * 2 + 1) / 2 % 8 * 2048 ≤ (i 1).val ∧ (i 1).val < (((i 0).val / 512 * 8 + (i 1).val / 2048) * 2 + 1) / 2 % 8 * 2048 + 2048
    omega

/-- So the call's result array ends as the product. -/
theorem final (c : Dev nD) : (dats m 0 c).arrAt 4 cfg0.N = product m c :=
  (dats m 0 c).arrAt_eq_of_cover 4 (product m c) (flushed_eq m c) cover

/-- The program's result: the product re-laid as 4 x 2048 x 16384. -/
abbrev result (c : Dev nD) : Buf (Elt Ideal) ((c : Thread nD τ).loc main_v31) :=
  shapeCast S4x2048x16384 (product m c) shapeCasts_S8192x16384_S4x2048x16384

/-- The one host operation after the call re-lays the call's result array. -/
theorem tail_eq (c : Dev nD) : Pipeline.afterTail₀ cfgs (dats m) 0 (V0 m) [hostOps1] c main_v31 = result m c := by
  unfold Pipeline.afterTail₀
  show StableHlo.after hostOps1 _ (Proc.devRef .tc main_v31) = _
  after_results
  have e : Pipeline.withArrays (cfgs 0).spec c (V0 m c) (fun w => (dats m 0 c).arrAt w (cfgs 0).N) (Proc.devRef .tc main_v30)
      = product m c :=
    (Pipeline.withArrays_arr spec0 launch0.win.arr_inj c (V0 m c) (fun w => (dats m 0 c).arrAt w cfg0.N) 4).trans (final m c)
  rw [e]
  rfl

/-- The run, read: the result at the re-laid product, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v31 (Pipeline.mem_restRefs_of main_v31 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Final

end
-- ==== Proof.Entry.lean ====
/-
  The arrays the region finds, as functions of the two arguments. The host operations before the call quantize each
  argument exactly as the reference does — the same operations with the same literals, in the same order — so each
  array is one of the reference's own stages, re-laid:
    * the left operand is the reference's quantized lhs (4 x 2048 x 4096) with its two leading axes flattened to 8192
      rows, then narrowed to bf16 (at the ideal instance a change of format is the identity);
    * the right operand is the reference's quantized rhs, narrowed to bf16;
    * the row scales are the reference's lhs scales (4 x 2048 x 1) flattened to 8192 x 1;
    * the column scales are the reference's rhs scales (1 x 16384) as they are.
  A flattening keeps the row-major position: row r = b · 2048 + s of the flat array is entry (b, s) of the original.
-/
import proofs.«157518_j19481971655319_1_alg».proof.Proof.Gen.KernelIdeal.Frame
import proofs.«157518_j19481971655319_1_alg».proof.Proof.Gen.ReferenceIdeal.Read
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.StableHlo Idealize.ShloMosaic.ValueIdx

namespace Cert.KernelIdeal.Entry

open Cert.KernelIdeal Cert.KernelIdeal.Gen
open Cert.ReferenceIdeal.Read (val_main_v12 val_main_v25 val_main_v8 val_main_v21)

section AnyInstance

variable {F : FTy → Type} [FloatOps F]
variable (m : (ℓ : Loc nD τ sig) → Buf (Elt F) ℓ)

set_option maxRecDepth 8192 in
set_option maxHeartbeats 4000000 in
theorem lhs_entry (c : Dev nD) : (V m c main_v27 : S8192x4096.Idx → Elt F .bf16)
    = truncf .bf16 (shapeCast S8192x4096 (val_main_v12 (F := F) (m ((c : Thread nD τ).loc main_arg0))) shapeCasts_S4x2048x4096_S8192x4096) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxRecDepth 8192 in
set_option maxHeartbeats 4000000 in
theorem rhs_entry (c : Dev nD) : (V m c main_v28 : S4096x16384.Idx → Elt F .bf16)
    = truncf .bf16 (val_main_v25 (F := F) (m ((c : Thread nD τ).loc main_arg1))) bitsLt_bf16_f32 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxRecDepth 8192 in
set_option maxHeartbeats 4000000 in
theorem row_scale_entry (c : Dev nD) : (V m c main_v29 : S8192x1.Idx → Elt F .f32)
    = shapeCast S8192x1 (val_main_v8 (F := F) (m ((c : Thread nD τ).loc main_arg0))) shapeCasts_S4x2048x1_S8192x1 := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

set_option maxRecDepth 8192 in
set_option maxHeartbeats 4000000 in
theorem col_scale_entry (c : Dev nD) : (V m c main_v21 : S1x16384.Idx → Elt F .f32)
    = val_main_v21 (F := F) (m ((c : Thread nD τ).loc main_arg1)) := by
  dsimp only [Gen.V, Gen.V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp <;> rfl

end AnyInstance

section AtIdeal

variable (m : (ℓ : Loc nD τ sig) → Buf (Elt Ideal) ℓ)

/-- Row r = b · 2048 + s of the flat left operand is row (b, s) of the reference's quantized lhs. -/
theorem lhs_entry_apply (c : Dev nD) (b : Fin 4) (s : Fin 2048) (d : Fin 4096) (r : Fin 8192) (hr : r.val = b.val * 2048 + s.val) :
    (V m c main_v27 : S8192x4096.Idx → Elt Ideal .bf16) (ix2 r d)
      = val_main_v12 (F := Ideal) (m ((c : Thread nD τ).loc main_arg0)) (ix3 b s d) := by
  rw [lhs_entry]
  show shapeCast S8192x4096 (val_main_v12 (F := Ideal) (m ((c : Thread nD τ).loc main_arg0))) shapeCasts_S4x2048x4096_S8192x4096 (ix2 r d) = _
  exact shapeCast_apply (val_main_v12 (F := Ideal) (m ((c : Thread nD τ).loc main_arg0))) shapeCasts_S4x2048x4096_S8192x4096 (ix2 r d) (ix3 b s d) (by
    rw [Shape.rowMajor_val_three, Shape.rowMajor_val_two]
    show (b.val * 2048 + s.val) * 4096 + d.val = r.val * 4096 + d.val
    rw [hr])

theorem rhs_entry_apply (c : Dev nD) (j : S4096x16384.Idx) :
    (V m c main_v28 : S4096x16384.Idx → Elt Ideal .bf16) j
      = val_main_v25 (F := Ideal) (m ((c : Thread nD τ).loc main_arg1)) j := by
  rw [rhs_entry]
  rfl

/-- Row r = b · 2048 + s of the flat row scales is the reference's lhs scale of row (b, s). -/
theorem row_scale_entry_apply (c : Dev nD) (b : Fin 4) (s : Fin 2048) (r : Fin 8192) (hr : r.val = b.val * 2048 + s.val) :
    (V m c main_v29 : S8192x1.Idx → Elt Ideal .f32) (ix2 r 0)
      = val_main_v8 (F := Ideal) (m ((c : Thread nD τ).loc main_arg0)) (ix3 b s 0) := by
  rw [row_scale_entry]
  exact shapeCast_apply (val_main_v8 (F := Ideal) (m ((c : Thread nD τ).loc main_arg0))) shapeCasts_S4x2048x1_S8192x1 (ix2 r 0) (ix3 b s 0) (by
    rw [Shape.rowMajor_val_three, Shape.rowMajor_val_two]
    show (b.val * 2048 + s.val) * 1 + 0 = r.val * 1 + 0
    rw [hr])

end AtIdeal

end Cert.KernelIdeal.Entry

end
-- ==== Proof.RefValue.lean ====
/-
  The reference computes the same array. Its result at (b, s, f) is

      (sum over d < 4096 of qlhs (b, s, d) · qrhs (d, f)) · lscale (b, s, 0) · rscale (0, f)

  (one contraction over all 4096 indices, then the two products with the broadcast scales, left to right), where qlhs,
  qrhs, lscale, rscale are its quantization stages. The kernel's result at (b, s, f) is the dequantized product of the
  arrays its region finds at row r = b · 2048 + s and column f, and those arrays are the same stages with the rows
  flattened: entry by entry the two are one extended real.
-/
import proofs.«157518_j19481971655319_1_alg».proof.Proof.Final
import proofs.«157518_j19481971655319_1_alg».proof.Proof.Entry

noncomputable section

open Idealize.ShloMosaic Idealize.ShloMosaic.TcCoe Idealize.SL.Sem Idealize.ShloMosaic.ValueIdx

namespace Cert.KernelIdeal.RefValue

open Cert.KernelIdeal Cert.KernelIdeal.Gen Cert.KernelIdeal.Blocks Cert.Quant
open Cert.ReferenceIdeal.Read

variable (m : (ℓ : Loc nD τ sig) → Buf (Elt Ideal) ℓ)

/-- The reference's last stage, of the kernel's arguments, is the kernel's result. -/
theorem reference_eq (c : Dev nD) :
    val_main_v31 (F := Ideal) (m ((c : Thread nD τ).loc main_arg0)) (m ((c : Thread nD τ).loc main_arg1)) = Final.result m c := by
  funext i
  obtain ⟨b, s, f, rfl⟩ : ∃ (b : Fin 4) (s : Fin 2048) (f : Fin 16384), i = ix3 b s f := ⟨i 0, i 1, i 2, eq_ix3 i⟩
  have hb : b.val < 4 := b.isLt
  have hs : s.val < 2048 := s.isLt
  obtain ⟨r, hr⟩ : ∃ r : Fin 8192, r.val = b.val * 2048 + s.val := ⟨⟨b.val * 2048 + s.val, by omega⟩, rfl⟩
  have e_l : ∀ k : Fin 4096, lidx_main_v26 (ix3 b s f) k = ix3 b s k := fun k => funext fun a => by
    match a with | ⟨0, _⟩ => rfl | ⟨1, _⟩ => rfl | ⟨2, _⟩ => rfl
  have e_r : ∀ k : Fin 4096, ridx_main_v26 (ix3 b s f) k = ix2 k f := fun k => funext fun a => by
    match a with | ⟨0, _⟩ => rfl | ⟨1, _⟩ => rfl
  have e_sl : idx_main_v27 (ix3 b s f) = ix3 b s 0 := funext fun a => by
    match a with | ⟨0, _⟩ => rfl | ⟨1, _⟩ => rfl | ⟨2, _⟩ => rfl
  have e_sr : idx_main_v29 (idx_main_v30 (ix3 b s f)) = ix2 0 f := funext fun a => by
    match a with | ⟨0, _⟩ => rfl | ⟨1, _⟩ => rfl
  rw [val_main_v31_apply, val_main_v28_apply, val_main_v26_apply, val_main_v27_apply, val_main_v30_apply, val_main_v29_apply,
    e_sl, e_sr]
  simp only [e_l, e_r]
  show _ = shapeCast S4x2048x16384 (Final.product m c) shapeCasts_S8192x16384_S4x2048x16384 (ix3 b s f)
  rw [shapeCast_apply (Final.product m c) shapeCasts_S8192x16384_S4x2048x16384 (ix3 b s f) (ix2 r f) (by
    show (S8192x16384.rowMajor (ix2 r f)).val = (S4x2048x16384.rowMajor (ix3 b s f)).val
    rw [Shape.rowMajor_val_two, Shape.rowMajor_val_three]
    show r.val * 16384 + f.val = (b.val * 2048 + s.val) * 16384 + f.val
    rw [hr])]
  show _ = dequantProduct (lhsArr m c) (rhsArr m c) (rowScaleArr m c) (colScaleArr m c) (ix2 r f)
  rw [dequantProduct_apply]
  have hsum : ∑ d : Fin 4096, lhsArr m c (ix2 r d) * rhsArr m c (ix2 d f)
      = ∑ d : Fin 4096, val_main_v12 (F := Ideal) (m ((c : Thread nD τ).loc main_arg0)) (ix3 b s d) * val_main_v25 (F := Ideal) (m ((c : Thread nD τ).loc main_arg1)) (ix2 d f) :=
    Finset.sum_congr rfl fun d _ => by
      rw [show lhsArr m c (ix2 r d) = _ from Entry.lhs_entry_apply m c b s d r hr,
        show rhsArr m c (ix2 d f) = _ from Entry.rhs_entry_apply m c (ix2 d f)]
  rw [hsum, show rowScaleArr m c (ix2 r 0) = _ from Entry.row_scale_entry_apply m c b s r hr,
    show colScaleArr m c = _ from Entry.col_scale_entry m c]
  rfl

end Cert.KernelIdeal.RefValue

end
-- ==== Proof.lean ====
/-
  A quantized matrix product, 'bsd,df->bsf' over lhs f32[4, 2048, 4096] and rhs f32[4096, 16384]. Both programs
  quantize the two arguments in the same way (per-row and per-column absolute maxima over the contraction axis,
  divided by 127, a zero scale replaced by one; the argument divided by its scale, rounded to even, clipped to
  [-127, 127]) and dequantize the product of the quantized operands by the row scales, then by the column scales.
  They differ only in how the product is taken:
    * the reference contracts all 4096 indices in one dot_general on the 4 x 2048 x 4096 operand;
    * the kernel flattens the rows to 8192, narrows the operands to bf16, and runs a 16 x 8 x 2 grid of 512 x 2048
      output blocks, contracting 2048 indices per step into an accumulator that starts at zero, and scaling the
      accumulator when the second step has been added.
  On the extended reals a change of float format is the identity and an addition may be regrouped, so
      (0 + sum over the first 2048 indices) + sum over the last 2048 indices = the sum over all 4096,
  and the two results are equal entry by entry. No finiteness of the inputs is used: only commutativity and
  associativity of the addition, and both sides multiply by the scales in the same order.

  The modules, in order: SumSplit (the law), Spec (the result as one function of four arrays), Pieces (what one run of the
  body leaves, at any float instance), Payload (the body's stored values entry by entry), Blocks (a block's entry is an
  array's entry), Entry (the arrays the region finds are the reference's quantization stages), Accum (the block written
  back is a block of the result), Final (the result array, and the run), RefValue (the reference's result is the same).
  The frames of the two kernels and the reference's run are the generated ones; the ideal pass rewrote nothing, so
  the preservation claim is trivial.
-/
import proofs.«157518_j19481971655319_1_alg».proof.Defs
import proofs.«157518_j19481971655319_1_alg».proof.Proof.Gen.Kernel
import proofs.«157518_j19481971655319_1_alg».proof.Proof.Gen.Kernel.Frame
import proofs.«157518_j19481971655319_1_alg».proof.Proof.Gen.KernelIdeal
import proofs.«157518_j19481971655319_1_alg».proof.Proof.Gen.KernelIdeal.Frame
import proofs.«157518_j19481971655319_1_alg».proof.Proof.Gen.ReferenceIdeal
import proofs.«157518_j19481971655319_1_alg».proof.Proof.Gen.ReferenceIdeal.Run
import proofs.«157518_j19481971655319_1_alg».proof.Proof.Gen.ReferenceIdeal.Read
import proofs.«157518_j19481971655319_1_alg».proof.Proof.Gen.Pre_finite_inputs
import proofs.«157518_j19481971655319_1_alg».proof.Proof.Final
import proofs.«157518_j19481971655319_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the two arguments both programs end with the dequantized product of the quantized
    operands, re-laid as 4 x 2048 x 16384: the kernel by its run over the grid, the reference by its last stage. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v31 m' c = Cert.KernelIdeal.Final.result m c
  rw [Cert.ReferenceIdeal.Read.val_main_v31_eq, (hagree c).1, (hagree c).2]
  exact Cert.KernelIdeal.RefValue.reference_eq m c

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
